-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x4096x1024 : Shape := ⟨3, ![16, 4096, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_

variable [Facts]

def fn_part1 {F : FTy → Type} [FloatOps F] (main_v13 : IVec S_ 1) (main_v16 : IVec S16x4096x1024 1) : IVec S_ 1 :=
  let main_c_5 : IVec S_ 1 := constantI S_ 1 1#1
  let main_v17 : IVec S_ 1 := (fun x v => Host.reduce IntOp.andi x v reducesTo_S16x4096x1024_S_d0_1_2 h_S_) main_v16 main_c_5
  let main_v18 : IVec S_ 1 := andi main_v13 main_v17
  main_v18

def fn {F : FTy → Type} [FloatOps F] (main_arg0 : FVec F S16x2048x1024 .f32) (main_arg1 : FVec F S16x4096x1024 .f32) (main_arg2 : FVec F S16x4096x1024 .f32) (main_arg3 : FVec F S16x4096x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x4096x1024 .f32 := Host.absf main_arg1
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S16x4096x1024 .f32 := Host.absf main_arg2
  let main_cst_2 : FVec F S_ .f32 := constant S_ .f32 0x7F800000#32
  let main_v10 : FVec F S16x4096x1024 .f32 := broadcastInDim S16x4096x1024 ![] bcast_S_S16x4096x1024 main_cst_2
  let main_v11 : IVec S16x4096x1024 1 := cmpf .olt main_v9 main_v10
  let main_c_3 : IVec S_ 1 := constantI S_ 1 1#1
  let main_v12 : IVec S_ 1 := (fun x v => Host.reduce IntOp.andi x v reducesTo_S16x4096x1024_S_d0_1_2 h_S_) main_v11 main_c_3
  let main_v13 : IVec S_ 1 := andi main_v8 main_v12
  let main_v14 : FVec F S16x4096x1024 .f32 := Host.absf main_arg3
  let main_cst_4 : FVec F S_ .f32 := constant S_ .f32 0x7F800000#32
  let main_v15 : FVec F S16x4096x1024 .f32 := broadcastInDim S16x4096x1024 ![] bcast_S_S16x4096x1024 main_cst_4
  let main_v16 : IVec S16x4096x1024 1 := cmpf .olt main_v14 main_v15
  fn_part1 (F := F) main_v13 main_v16
-- ==== Kernel.lean ====
abbrev S16x2048x1024 : Shape := ⟨3, ![16, 2048, 1024]⟩
abbrev S16x4096x1024 : Shape := ⟨3, ![16, 4096, 1024]⟩
abbrev S1x512x1024 : Shape := ⟨3, ![1, 512, 1024]⟩
abbrev S512x1024 : Shape := ⟨2, ![512, 1024]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S16x4096x1024, .f32⟩
  | .hbm, ⟨3, _⟩ => ⟨S16x4096x1024, .f32⟩
  | .hbm, ⟨4, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v38 : BitVec 1 := Scalar.cmpi .eq arg2 c7_i32
  let v39 : BitVec 32 := Scalar.extui v38
  let c0_i32_22 : BitVec 32 := 0#32
  let v40 : BitVec 1 := Scalar.cmpi .ne v39 c0_i32_22
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  shapeCasts_S512x1024_S1x512x1024 : S512x1024.ShapeCasts S1x512x1024
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x4096x1024.size a
  hwx0_1 : ∀ i : grid0.Coords, EltTy.bits .f32 = 32 ∨ (Rect.block (s := S16x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x4096x1024.size a
  hwx0_2 : ∀ i : grid0.Coords, EltTy.bits .f32 = 32 ∨ (Rect.block (s := S16x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x4096x1024.size a
  hwx0_3 : ∀ i : grid0.Coords, EltTy.bits .f32 = 32 ∨ (Rect.block (s := S16x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S16x2048x1024.size a
  hwx0_4 : ∀ i : grid0.Coords, EltTy.bits .f32 = 32 ∨ (Rect.block (s := S16x2048x1024) S1x512x1024.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x2048x1024 : Shape := ⟨3, ![16, 2048, 1024]⟩
abbrev S16x4096x1024 : Shape := ⟨3, ![16, 4096, 1024]⟩
abbrev S16x2048x4096 : Shape := ⟨3, ![16, 2048, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x4096x1024, .f32⟩
  | .hbm, ⟨2, _⟩ => ⟨S16x4096x1024, .f32⟩
  | .hbm, ⟨3, _⟩ => ⟨S16x4096x1024, .f32⟩
  | .hbm, ⟨4, _⟩ => ⟨S16x2048x4096, .f32⟩
  | .hbm, ⟨5, _⟩ => ⟨S16x2048x4096, .f32⟩
  | .hbm, ⟨6, _⟩ => ⟨S16x2048x4096, .f32⟩
  | .hbm, ⟨7, _⟩ => ⟨S16x2048x4096, .f32⟩
  | .hbm, ⟨8, _⟩ => ⟨S_, .f32⟩
  | .hbm, ⟨9, _⟩ => ⟨S16x2048x4096, .f32⟩
  | .hbm, ⟨10, _⟩ => ⟨S16x2048x4096, .f32⟩
  | .hbm, ⟨11, _⟩ => ⟨S16x2048x4096, .f32⟩
  | .hbm, ⟨12, _⟩ => ⟨S_, .f32⟩
  | .hbm, ⟨13, _⟩ => ⟨S16x2048x4096, .f32⟩
  | .hbm, ⟨14, _⟩ => ⟨S16x2048x4096, .f32⟩
  | .hbm, ⟨15, _⟩ => ⟨S16x2048x4096, .f32⟩
  | .hbm, ⟨16, _⟩ => ⟨S_, .f32⟩
  | .hbm, ⟨17, _⟩ => ⟨S16x2048x4096, .f32⟩
  | .hbm, ⟨18, _⟩ => ⟨S16x2048x4096, .f32⟩
  | .hbm, ⟨19, _⟩ => ⟨S_, .f32⟩
  | .hbm, ⟨20, _⟩ => ⟨S16x2048x4096, .f32⟩
  | .hbm, ⟨21, _⟩ => ⟨S16x2048x4096, .f32⟩
  | .hbm, ⟨22, _⟩ => ⟨S16x2048x4096, .f32⟩
  | .hbm, ⟨23, _⟩ => ⟨S16x2048x4096, .f32⟩
  | .hbm, ⟨24, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16x2048x4096 : S_.BroadcastsInDim S16x2048x4096 (![] : Fin 0 → Fin S16x2048x4096.rank)
  dot_S16x2048x1024_S16x4096x1024_S16x2048x4096_2_2_1_1_0_0_wf : DotDims.WF S16x2048x1024 S16x4096x1024 S16x2048x4096 [2] [2] [1] [1] [0] [0]
  dot_S16x2048x4096_S16x4096x1024_S16x2048x1024_2_1_1_2_0_0_wf : DotDims.WF S16x2048x4096 S16x4096x1024 S16x2048x1024 [2] [1] [1] [2] [0] [0]

variable [Facts₀]

def dot_S16x2048x1024_S16x4096x1024_S16x2048x4096_2_2_1_1_0_0 : DotDims S16x2048x1024 S16x4096x1024 S16x2048x4096 where
  lhsContracting := [2]
  rhsContracting := [2]
  lhsNonContracting := [1]
  rhsNonContracting := [1]
  lhsBatch := [0]
  rhsBatch := [0]
  wf := dot_S16x2048x1024_S16x4096x1024_S16x2048x4096_2_2_1_1_0_0_wf
def dot_S16x2048x4096_S16x4096x1024_S16x2048x1024_2_1_1_2_0_0 : DotDims S16x2048x4096 S16x4096x1024 S16x2048x1024 where
  lhsContracting := [2]
  rhsContracting := [1]
  lhsNonContracting := [1]
  rhsNonContracting := [2]
  lhsBatch := [0]
  rhsBatch := [0]
  wf := dot_S16x2048x4096_S16x4096x1024_S16x2048x1024_2_1_1_2_0_0_wf

class Facts : Prop extends Facts₀ where

variable [Facts]
-- ==== Proof.GluSpec.lean ====
/-
  The mathematics both programs compute, on the extended reals.

  For an expert e, a token row t and an output column n, the result is
      Σ_f  act (Σ_h X[e,t,h]·W1[e,f,h]) (Σ_h X[e,t,h]·V1[e,f,h]) · W2[e,f,n]
  over the 4096 hidden units f, where act a b = a · (½ · (1 + tanh (c₁ · (a + c₀ · a³)))) · b is the
  tanh-approximated GELU of a, gated by b. The hidden axis is cut into eight chunks of 512 units; a chunk's
  partial sum is what one grid point adds, and the eight chunks' partial sums add up to the whole sum because
  addition of extended reals is associative and commutative (no finiteness is needed for that).
-/
import Idealize.ShloMosaic.PureOps.Ideal
import Idealize.ShloMosaic.PureOps.Ideal.Laws
import Idealize.ShloMosaic.Lib.ValueIdx

noncomputable section

namespace Cert.GluSpec

open Idealize.ShloMosaic Idealize.ShloMosaic.ValueIdx

/-- The shape of the tokens and of the result: 16 experts, 2048 token rows, 1024 hidden features. -/
abbrev SX : Shape := ⟨3, ![16, 2048, 1024]⟩
/-- The shape of each of the three weight arrays: 16 experts, 4096 hidden units, 1024 features. -/
abbrev SW : Shape := ⟨3, ![16, 4096, 1024]⟩

/-- The gated activation: the tanh-approximated GELU of `a`, times the gate `b`. The four literals are the f32
    words both programs print (0.5, 1, 0.797884583 and 0.044715), read as the reals they denote. -/
def act (a b : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * (a * a)))))) * b

/-- The cube may be bracketed either way: multiplication of extended reals is commutative. -/
theorem cube_comm (a : EReal) : a * a * a = a * (a * a) := mul_comm _ _

/-- Token row (e, t) against hidden unit f of a weight array: the inner product over the 1024 features. -/
def proj (X : SX.Idx → EReal) (W : SW.Idx → EReal) (e : Fin 16) (t : Fin 2048) (f : Fin 4096) : EReal :=
  ∑ h : Fin 1024, X (ix3 e t h) * W (ix3 e f h)

/-- Hidden unit f's contribution to the result at (e, t, n). -/
def term (X : SX.Idx → EReal) (W1 V1 W2 : SW.Idx → EReal) (e : Fin 16) (t : Fin 2048) (n : Fin 1024) (f : Fin 4096) : EReal :=
  act (proj X W1 e t f) (proj X V1 e t f) * W2 (ix3 e f n)

/-- THE RESULT: at (e, t, n) the sum of the 4096 hidden units' contributions. -/
def G (X : SX.Idx → EReal) (W1 V1 W2 : SW.Idx → EReal) : SX.Idx → EReal :=
  fun i => ∑ f : Fin 4096, term X W1 V1 W2 (i 0) (i 1) (i 2) f

/-- Hidden unit number f' of chunk s (s taken modulo 8, so that every natural names a chunk). -/
def unitOf (s : Nat) (f' : Fin 512) : Fin 4096 := ⟨(s % 8) * 512 + f'.val, by have := f'.isLt; have := Nat.mod_lt s (show 0 < 8 by decide); omega⟩

/-- Chunk s's partial sum: the contributions of its 512 hidden units. -/
def chunk (X : SX.Idx → EReal) (W1 V1 W2 : SW.Idx → EReal) (e : Fin 16) (t : Fin 2048) (n : Fin 1024) (s : Nat) : EReal :=
  ∑ f' : Fin 512, term X W1 V1 W2 e t n (unitOf s f')

/-- A sum over 4096 = 8 · 512 terms is the sum over the eight chunks of each chunk's 512 terms. -/
theorem sum_chunks {M : Type*} [AddCommMonoid M] (g : Fin 4096 → M) :
    ∑ f : Fin 4096, g f = ∑ s ∈ Finset.range 8, ∑ f' : Fin 512, g (unitOf s f') := by
  rw [Finset.sum_range (fun s => ∑ f' : Fin 512, g (unitOf s f')), ← Fintype.sum_prod_type']
  refine (Fintype.sum_equiv (finProdFinEquiv (m := 8) (n := 512)) _ _ fun p => ?_).symm
  refine congrArg g (Fin.ext ?_)
  show (p.1.val % 8) * 512 + p.2.val = p.2.val + 512 * p.1.val
  have := p.1.isLt
  rw [Nat.mod_eq_of_lt this]; omega

/-- The result is the eight chunks' partial sums added up. -/
theorem G_eq_chunks (X : SX.Idx → EReal) (W1 V1 W2 : SW.Idx → EReal) (i : SX.Idx) :
    G X W1 V1 W2 i = ∑ s ∈ Finset.range 8, chunk X W1 V1 W2 (i 0) (i 1) (i 2) s :=
  sum_chunks _

end Cert.GluSpec

end
-- ==== Proof.RefSpec.lean ====
/-
  The reference computes the specification: its three einsums are the inner products and the final sum of
  `Cert.GluSpec`, and between them it applies the gated activation, with the cube bracketed (a·a)·a.
-/
import proofs.«143863_j46815143526760_1_alg».proof.Proof.Gen.ReferenceIdeal.Read
import proofs.«143863_j46815143526760_1_alg».proof.Proof.GluSpec

noncomputable section

namespace Cert.ReferenceIdeal.RefSpec

open Cert.ReferenceIdeal Cert.ReferenceIdeal.Read Idealize.ShloMosaic Idealize.ShloMosaic.ValueIdx Cert.GluSpec

variable (x0 : (⟨S16x2048x1024, .f32⟩ : BufTy).Contents (Elt Ideal)) (x1 x2 x3 : (⟨S16x4096x1024, .f32⟩ : BufTy).Contents (Elt Ideal))

/-- The first einsum at (e, t, f) is the inner product of token row (e, t) with hidden unit f of the first weight array. -/
theorem up_eq (i : S16x2048x1024.Idx) (k : Fin 4096) :
    val_main_v0 (F := Ideal) x0 x1 (lidx_main_v16 i k) = proj x0 x1 (i 0) (i 1) k := by
  rw [val_main_v0_apply]
  unfold proj
  refine Finset.sum_congr rfl fun h _ => ?_
  congr 2 <;> (funext a; match a with | ⟨0, _⟩ => rfl | ⟨1, _⟩ => rfl | ⟨2, _⟩ => rfl)

/-- The second einsum likewise, with the gate's weight array. -/
theorem gate_eq (i : S16x2048x1024.Idx) (k : Fin 4096) :
    val_main_v1 (F := Ideal) x0 x2 (lidx_main_v16 i k) = proj x0 x2 (i 0) (i 1) k := by
  rw [val_main_v1_apply]
  unfold proj
  refine Finset.sum_congr rfl fun h _ => ?_
  congr 2 <;> (funext a; match a with | ⟨0, _⟩ => rfl | ⟨1, _⟩ => rfl | ⟨2, _⟩ => rfl)

/-- The hidden activation at (e, t, f): the gated activation of the two inner products. -/
theorem hidden_eq (i : S16x2048x1024.Idx) (k : Fin 4096) :
    val_main_v15 (F := Ideal) x0 x1 x2 (lidx_main_v16 i k) = act (proj x0 x1 (i 0) (i 1) k) (proj x0 x2 (i 0) (i 1) k) := by
  rw [val_main_v15_apply, val_main_v14_apply, val_main_v13_apply, val_main_v12_apply, val_main_cst_2_apply, val_main_v11_apply,
    val_main_v10_apply, val_main_cst_1_apply, val_main_v9_apply, val_main_v8_apply, val_main_v7_apply, val_main_cst_0_apply,
    val_main_v6_apply, val_main_v5_apply, val_main_v4_apply, val_main_cst_apply, val_main_v3_apply, val_main_v2_apply,
    up_eq, gate_eq]
  simp only [Ideal.mulf_def, Ideal.addf_def, Ideal.hostUnary_tanh_def, Ideal.ofBits_def]
  unfold act
  rw [cube_comm]

/-- The reference's result is the specification. -/
theorem result_eq : val_main_v16 (F := Ideal) x0 x1 x2 x3 = G x0 x1 x2 x3 := by
  funext i
  rw [val_main_v16_apply]
  unfold G term
  refine Finset.sum_congr rfl fun k _ => ?_
  rw [hidden_eq]
  congr 2
  funext a; match a with | ⟨0, _⟩ => rfl | ⟨1, _⟩ => rfl | ⟨2, _⟩ => rfl

end Cert.ReferenceIdeal.RefSpec

end
-- ==== Proof.Blocks.lean ====
/-
  Where a grid point's blocks sit in the arrays.

  The grid runs over 16 experts, 4 blocks of 512 token rows and 8 chunks of 512 hidden units, the chunk fastest:
  point t is expert t / 32, row block t / 8 mod 4, chunk t mod 8. The token block and the output block at t are
  rows 512·(t / 8 mod 4) … of expert t / 32; the three weight blocks are hidden units 512·(t mod 8) … of it.
-/
import proofs.«143863_j46815143526760_1_alg».proof.Proof.Gen.KernelIdeal.Frame
import Idealize.ShloMosaic.Lib.Pipeline.Value
import Idealize.ShloMosaic.Lib.ValueIdx
import proofs.«143863_j46815143526760_1_alg».proof.Proof.GluSpec

noncomputable section

namespace Cert.KernelIdeal.Blocks

open Cert.KernelIdeal Cert.KernelIdeal.Gen Idealize.ShloMosaic Idealize.ShloMosaic.TcCoe Idealize.ShloMosaic.ValueIdx Idealize.SL.Sem
open Cert.GluSpec (unitOf)

variable {F : FTy → Type} [FloatOps F]
variable (m : (ℓ : Loc nD τ sig) → Buf (Elt F) ℓ)

/-- The expert of grid point n (of any natural, reduced into range). -/
def expertOf (n : Nat) : Fin 16 := ⟨n / 32 % 16, Nat.mod_lt _ (by decide)⟩
/-- Token row p of grid point n's row block. -/
def rowOf (n : Nat) (p : Fin 512) : Fin 2048 := ⟨(n / 8 % 4) * 512 + p.val, by have := p.isLt; have := Nat.mod_lt (n / 8) (show 0 < 4 by decide); omega⟩

/-- The four argument arrays as the kernel finds them, at their literal types. -/
abbrev tokens (c : Dev nD) : Vec F S16x2048x1024 .f32 := V m c main_arg0
abbrev upW (c : Dev nD) : Vec F S16x4096x1024 .f32 := V m c main_arg1
abbrev gateW (c : Dev nD) : Vec F S16x4096x1024 .f32 := V m c main_arg2
abbrev downW (c : Dev nD) : Vec F S16x4096x1024 .f32 := V m c main_arg3

/-- The printed index maps, decided over the grid's 512 points. -/
theorem idx_tokens : ∀ t : Fin cfg0.N, win0_0.index t (0 : Fin 3) = t.val / 32 ∧ win0_0.index t (1 : Fin 3) = t.val / 8 % 4 ∧ win0_0.index t (2 : Fin 3) = 0 :=
  (by decide +kernel : ∀ t : Fin grid0.N, _)
theorem idx_up : ∀ t : Fin cfg0.N, win0_1.index t (0 : Fin 3) = t.val / 32 ∧ win0_1.index t (1 : Fin 3) = t.val % 8 ∧ win0_1.index t (2 : Fin 3) = 0 :=
  (by decide +kernel : ∀ t : Fin grid0.N, _)
theorem idx_gate : ∀ t : Fin cfg0.N, win0_2.index t (0 : Fin 3) = t.val / 32 ∧ win0_2.index t (1 : Fin 3) = t.val % 8 ∧ win0_2.index t (2 : Fin 3) = 0 :=
  (by decide +kernel : ∀ t : Fin grid0.N, _)
theorem idx_down : ∀ t : Fin cfg0.N, win0_3.index t (0 : Fin 3) = t.val / 32 ∧ win0_3.index t (1 : Fin 3) = t.val % 8 ∧ win0_3.index t (2 : Fin 3) = 0 :=
  (by decide +kernel : ∀ t : Fin grid0.N, _)
theorem idx_out : ∀ t : Fin cfg0.N, win0_4.index t (0 : Fin 3) = t.val / 32 ∧ win0_4.index t (1 : Fin 3) = t.val / 8 % 4 ∧ win0_4.index t (2 : Fin 3) = 0 :=
  (by decide +kernel : ∀ t : Fin grid0.N, _)

/-- The token block at point t: its (0, p, h) is the tokens' (expert, row p of the row block, h). -/
theorem tokens_blk (c : Dev nD) (t : Fin cfg0.N) (z : Fin 1) (p : Fin 512) (h : Fin 1024) :
    (iblk m c 0 t : Vec F S1x512x1024 .f32) (ix3 z p h) = tokens m c (ix3 (expertOf t.val) (rowOf t.val p) h) := by
  obtain ⟨e0, e1, e2⟩ := idx_tokens t
  have hN : t.val < 512 := lt_of_lt_of_eq t.isLt (show cfg0.N = 512 from N_0)
  have hz : z.val = 0 := by have := z.isLt; omega
  unfold iblk
  rw [View.read_apply]
  show V m c main_arg0 _ = V m c main_arg0 _
  congr 1
  funext a; apply Fin.ext
  match a with
  | ⟨0, _⟩ => show win0_0.index t (0 : Fin 3) * 1 + 1 * z.val = t.val / 32 % 16; omega
  | ⟨1, _⟩ => show win0_0.index t (1 : Fin 3) * 512 + 1 * p.val = (t.val / 8 % 4) * 512 + p.val; omega
  | ⟨2, _⟩ => show win0_0.index t (2 : Fin 3) * 1024 + 1 * h.val = h.val; omega

/-- The first weight block at point t: its (0, f, h) is the array's (expert, hidden unit f of the chunk, h). -/
theorem up_blk (c : Dev nD) (t : Fin cfg0.N) (z : Fin 1) (f : Fin 512) (h : Fin 1024) :
    (iblk m c 1 t : Vec F S1x512x1024 .f32) (ix3 z f h) = upW m c (ix3 (expertOf t.val) (unitOf t.val f) h) := by
  obtain ⟨e0, e1, e2⟩ := idx_up t
  have hN : t.val < 512 := lt_of_lt_of_eq t.isLt (show cfg0.N = 512 from N_0)
  have hz : z.val = 0 := by have := z.isLt; omega
  unfold iblk
  rw [View.read_apply]
  show V m c main_arg1 _ = V m c main_arg1 _
  congr 1
  funext a; apply Fin.ext
  match a with
  | ⟨0, _⟩ => show win0_1.index t (0 : Fin 3) * 1 + 1 * z.val = t.val / 32 % 16; omega
  | ⟨1, _⟩ => show win0_1.index t (1 : Fin 3) * 512 + 1 * f.val = (t.val % 8) * 512 + f.val; omega
  | ⟨2, _⟩ => show win0_1.index t (2 : Fin 3) * 1024 + 1 * h.val = h.val; omega

/-- The second weight block likewise. -/
theorem gate_blk (c : Dev nD) (t : Fin cfg0.N) (z : Fin 1) (f : Fin 512) (h : Fin 1024) :
    (iblk m c 2 t : Vec F S1x512x1024 .f32) (ix3 z f h) = gateW m c (ix3 (expertOf t.val) (unitOf t.val f) h) := by
  obtain ⟨e0, e1, e2⟩ := idx_gate t
  have hN : t.val < 512 := lt_of_lt_of_eq t.isLt (show cfg0.N = 512 from N_0)
  have hz : z.val = 0 := by have := z.isLt; omega
  unfold iblk
  rw [View.read_apply]
  show V m c main_arg2 _ = V m c main_arg2 _
  congr 1
  funext a; apply Fin.ext
  match a with
  | ⟨0, _⟩ => show win0_2.index t (0 : Fin 3) * 1 + 1 * z.val = t.val / 32 % 16; omega
  | ⟨1, _⟩ => show win0_2.index t (1 : Fin 3) * 512 + 1 * f.val = (t.val % 8) * 512 + f.val; omega
  | ⟨2, _⟩ => show win0_2.index t (2 : Fin 3) * 1024 + 1 * h.val = h.val; omega

/-- And the third. -/
theorem down_blk (c : Dev nD) (t : Fin cfg0.N) (z : Fin 1) (f : Fin 512) (h : Fin 1024) :
    (iblk m c 3 t : Vec F S1x512x1024 .f32) (ix3 z f h) = downW m c (ix3 (expertOf t.val) (unitOf t.val f) h) := by
  obtain ⟨e0, e1, e2⟩ := idx_down t
  have hN : t.val < 512 := lt_of_lt_of_eq t.isLt (show cfg0.N = 512 from N_0)
  have hz : z.val = 0 := by have := z.isLt; omega
  unfold iblk
  rw [View.read_apply]
  show V m c main_arg3 _ = V m c main_arg3 _
  congr 1
  funext a; apply Fin.ext
  match a with
  | ⟨0, _⟩ => show win0_3.index t (0 : Fin 3) * 1 + 1 * z.val = t.val / 32 % 16; omega
  | ⟨1, _⟩ => show win0_3.index t (1 : Fin 3) * 512 + 1 * f.val = (t.val % 8) * 512 + f.val; omega
  | ⟨2, _⟩ => show win0_3.index t (2 : Fin 3) * 1024 + 1 * h.val = h.val; omega

end Cert.KernelIdeal.Blocks

end
-- ==== Proof.Pieces.lean ====
/-
  What one grid point leaves behind, as a function of what it finds (at any float instance).

  Every grid point adds its chunk's product to the running accumulator: `step x w1 v1 w2 acc` is the accumulator
  after the point, from the point's four input blocks and the accumulator before it. The first point of a run of
  eight starts from the zero matrix instead of what it finds; the last one also copies the new accumulator into the
  output block.
-/
import proofs.«143863_j46815143526760_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The accumulator after a grid point: what it was, plus the gated hidden activations of the point's token block
    against its chunk of the first two weight arrays, multiplied into the chunk of the third. -/
def step (x w1 v1 w2 : Vec F S1x512x1024 .f32) (acc : Vec F S512x1024 .f32) : Vec F S512x1024 .f32 :=
  k0_pay1 (k0_pay4 x w1 v1) (k0_pay5 w2) acc (constant S512x1024 .f32 0x00000000#32)

theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

/-- At the first point of a run the accumulator is zeroed and then stepped: what the point before left does not enter. -/
theorem scratch_first (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1024 .f32) (harg8 : arg8.IsWhole) (hc0 : cond0_0 i) (hc1 : ¬cond0_1 i)
    (x0 x1 x2 x3 : Vec F S1x512x1024 .f32) :
    sout0_A_0 c i arg3 harg3 arg4 harg4 arg5 harg5 arg6 harg6 arg7 harg7 arg8 harg8 hc0 hc1 x0 x1 x2 x3 = step x0 x1 x2 x3 (k0_pay3 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread, harg8.read_unread, View.ld_unit_zero (S := S1x512x1024) hz3, View.ld_unit_zero (S := S512x1024) hz2]
  rfl

/-- At a middle point the accumulator the point before left is stepped. -/
theorem scratch_middle (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1024 .f32) (harg8 : arg8.IsWhole) (hc0 : ¬cond0_0 i) (hc1 : ¬cond0_1 i)
    (x0 x1 x2 x3 : Vec F S1x512x1024 .f32) (xs0 : Vec F S512x1024 .f32) :
    sout0_B_0 c i arg3 harg3 arg4 harg4 arg5 harg5 arg6 harg6 arg7 harg7 arg8 harg8 hc0 hc1 x0 x1 x2 x3 xs0 = step x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread, View.ld_unit_zero (S := S1x512x1024) hz3, View.ld_unit_zero (S := S512x1024) hz2]
  rfl

/-- At the last point of a run too. -/
theorem scratch_last (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1024 .f32) (harg8 : arg8.IsWhole) (hc0 : ¬cond0_0 i) (hc1 : cond0_1 i)
    (x0 x1 x2 x3 : Vec F S1x512x1024 .f32) (xs0 : Vec F S512x1024 .f32) :
    sout0_C_0 c i arg3 harg3 arg4 harg4 arg5 harg5 arg6 harg6 arg7 harg7 arg8 harg8 hc0 hc1 x0 x1 x2 x3 xs0 = step x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread, View.ld_unit_zero (S := S1x512x1024) hz3, View.ld_unit_zero (S := S512x1024) hz2]
  rfl

/-- And there the output block is the stepped accumulator, under a leading unit axis. -/
theorem out_last (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1024 .f32) (harg8 : arg8.IsWhole) (hc0 : ¬cond0_0 i) (hc1 : cond0_1 i)
    (x0 x1 x2 x3 : Vec F S1x512x1024 .f32) (xs0 : Vec F S512x1024 .f32) :
    out0_C_4 c i arg3 harg3 arg4 harg4 arg5 harg5 arg6 harg6 arg7 harg7 arg8 harg8 hc0 hc1 x0 x1 x2 x3 xs0 = k0_pay2 (step x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3, View.readCov_unit_zero (S := S512x1024) _ hz2]
  simp only [View.readAt_eq_ld, harg3.read_unread, harg4.read_unread, harg5.read_unread, harg6.read_unread, harg8.read_unread, View.ld_unit_zero (S := S1x512x1024) hz3, View.ld_unit_zero (S := S512x1024) hz2]
  rfl

end Cert.KernelIdeal.Pieces

end
-- ==== Proof.Payload.lean ====
/-
  The kernel body's arithmetic, read at an index on the extended reals.

  One grid point holds a block of 512 token rows, and a chunk of 512 hidden units of each weight array.
  It forms the two 512 × 512 products of the token rows with the chunk's rows of the first two weight
  arrays (each entry an inner product over the 1024 features), applies the gated activation entrywise, and
  adds the product of that 512 × 512 matrix with the chunk's rows of the third weight array (each entry a sum
  over the chunk's 512 hidden units) to the running 512 × 1024 accumulator. Rounding to bf16 is the identity on
  the extended reals, and a block's leading unit axis only renames indices.
-/
import proofs.«143863_j46815143526760_1_alg».proof.Proof.Gen.KernelIdeal.Skeleton
import proofs.«143863_j46815143526760_1_alg».proof.Proof.GluSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.GluSpec

/-! ## Layout: the block's leading unit axis -/

/-- A [1, 512, 1024] block viewed as a 512 × 1024 matrix: entry (p, k) is the block's (0, p, k). -/
theorem drop_apply {α : Type} (v : S1x512x1024.Idx → α) (p : Fin 512) (k : Fin 1024) :
    shapeCast S512x1024 v shapeCasts_S1x512x1024_S512x1024 (ix2 p k) = v (ix3 0 p k) := by
  rw [shapeCast_dropUnit_apply ![512, 1024] v shapeCasts_S1x512x1024_S512x1024 (ix2 p k)]
  congr 1
  funext a; match a with | ⟨0, _⟩ => rfl | ⟨1, _⟩ => rfl | ⟨2, _⟩ => rfl

/-- A 512 × 1024 matrix stored as a [1, 512, 1024] block: the block's (0, p, n) is entry (p, n). -/
theorem add_apply {α : Type} (v : S512x1024.Idx → α) (z : Fin 1) (p : Fin 512) (n : Fin 1024) :
    shapeCast S1x512x1024 v shapeCasts_S512x1024_S1x512x1024 (ix3 z p n) = v (ix2 p n) := by
  rw [shapeCast_addUnit_apply ![512, 1024] v shapeCasts_S512x1024_S1x512x1024 (ix3 z p n)]
  congr 1
  funext a; match a with | ⟨0, _⟩ => rfl | ⟨1, _⟩ => rfl

/-- The hyperbolic tangent of a vector, entry by entry. -/
theorem tanh_apply {s : Shape} {φ : FTy} (x : FVec Ideal s φ) (i : s.Idx) : tanh x i = Ideal.tanh (x i) := rfl

/-! ## The two products with the first weight arrays: rows against rows, contracted over the features -/

theorem up_lhs_0 (j : S512x512.Idx) (q : dot_S512x1024_S512x1024_S512x512_1_1_0_0_n_n.contr.Idx) :
    (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem up_lhs_1 (j : S512x512.Idx) (q : dot_S512x1024_S512x1024_S512x512_1_1_0_0_n_n.contr.Idx) :
    (dot_S512x1024_S512x1024_S512x512_1_1_0_0_n_n.lhsIdx j q 1).val = (q ⟨0, by decide⟩).val :=
  dot_S512x1024_S512x1024_S512x512_1_1_0_0_n_n.lhsIdx_val_of_single rfl j q
theorem up_rhs_0 (j : S512x512.Idx) (q : dot_S512x1024_S512x1024_S512x512_1_1_0_0_n_n.contr.Idx) :
    (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem up_rhs_1 (j : S512x512.Idx) (q : dot_S512x1024_S512x1024_S512x512_1_1_0_0_n_n.contr.Idx) :
    (dot_S512x1024_S512x1024_S512x512_1_1_0_0_n_n.rhsIdx j q 1).val = (q ⟨0, by decide⟩).val :=
  dot_S512x1024_S512x1024_S512x512_1_1_0_0_n_n.rhsIdx_val_of_single rfl j q

/-- Entry (p, q) of the product of a 512 × 1024 matrix with the transpose of another, into the zero accumulator:
    the inner product of row p of the one with row q of the other. -/
theorem up_apply (a b : FVec Ideal S512x1024 .bf16) (p q : Fin 512) :
    matmul dot_S512x1024_S512x1024_S512x512_1_1_0_0_n_n none a b (constant (F := Ideal) S512x512 .f32 0x00000000#32) (ix2 p q)
      = ∑ h : Fin 1024, a (ix2 p h) * b (ix2 q h) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact up_lhs_0 _ _
    | ⟨1, _⟩ => exact (up_lhs_1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact up_rhs_0 _ _
    | ⟨1, _⟩ => exact (up_rhs_1 _ _).trans hk)
  rw [el, er]

/-- The same product over the blocks as loaded: the inner product of block row p of the tokens with block row q
    of the weights. -/
theorem up_block (x w : Vec Ideal S1x512x1024 .f32) (p q : Fin 512) :
    matmul dot_S512x1024_S512x1024_S512x512_1_1_0_0_n_n none (truncf .bf16 (shapeCast S512x1024 x shapeCasts_S1x512x1024_S512x1024) bitsLt_bf16_f32)
        (truncf .bf16 (shapeCast S512x1024 w shapeCasts_S1x512x1024_S512x1024) bitsLt_bf16_f32)
        (constant (F := Ideal) S512x512 .f32 0x00000000#32) (ix2 p q)
      = ∑ h : Fin 1024, x (ix3 0 p h) * w (ix3 0 q h) := by
  rw [up_apply]
  refine Finset.sum_congr rfl fun h _ => ?_
  rw [truncf_apply, truncf_apply, drop_apply, drop_apply]

/-- THE HIDDEN ACTIVATIONS of one grid point: entry (p, q) is the gated activation of the inner products of token
    row p with hidden unit q of the first and of the second weight block. -/
theorem act_apply (x0 x1 x2 : Vec Ideal S1x512x1024 .f32) (p q : Fin 512) :
    k0_pay4 (F := Ideal) x0 x1 x2 (ix2 p q)
      = act (∑ h : Fin 1024, x0 (ix3 0 p h) * x1 (ix3 0 q h)) (∑ h : Fin 1024, x0 (ix3 0 p h) * x2 (ix3 0 q h)) := by
  unfold k0_pay4
  simp only [truncf_apply, mulf_apply, addf_apply, broadcast_apply, tanh_apply, up_block, Ideal.ofBits_def]
  rfl

/-! ## The product with the third weight array: rows against columns, contracted over the chunk's hidden units -/

theorem down_lhs_0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem down_lhs_1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q
theorem down_rhs_0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q
theorem down_rhs_1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- Entry (p, n) of the plain product of a 512 × 512 matrix with a 512 × 1024 one, into the zero accumulator. -/
theorem down_apply (a : FVec Ideal S512x512 .bf16) (b : FVec Ideal S512x1024 .bf16) (p : Fin 512) (n : Fin 1024) :
    matmul dot_S512x512_S512x1024_S512x1024_1_0_0_1_n_n none a b (constant (F := Ideal) S512x1024 .f32 0x00000000#32) (ix2 p n)
      = ∑ f : Fin 512, a (ix2 p f) * b (ix2 f n) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p n) ((contrEquiv1 dot_S512x512_S512x1024_S512x1024_1_0_0_1_n_n 512 rfl rfl).symm k) = ix2 p k := funext fun a => Fin.ext (by
    match a with
    | ⟨0, _⟩ => exact down_lhs_0 _ _
    | ⟨1, _⟩ => exact (down_lhs_1 _ _).trans hk)
  have er : dot_S512x512_S512x1024_S512x1024_1_0_0_1_n_n.rhsIdx (ix2 p n) ((contrEquiv1 dot_S512x512_S512x1024_S512x1024_1_0_0_1_n_n 512 rfl rfl).symm k) = ix2 k n := funext fun a => Fin.ext (by
    match a with
    | ⟨0, _⟩ => exact (down_rhs_0 _ _).trans hk
    | ⟨1, _⟩ => exact down_rhs_1 _ _)
  rw [el, er]

/-- The third weight block as the body uses it: entry (f, n) is the block's (0, f, n). -/
theorem weight_apply (x3 : Vec Ideal S1x512x1024 .f32) (f : Fin 512) (n : Fin 1024) :
    k0_pay5 (F := Ideal) x3 (ix2 f n) = x3 (ix3 0 f n) := by
  unfold k0_pay5
  rw [truncf_apply, drop_apply]

/-- ONE STEP OF THE ACCUMULATION: the accumulator's entry (p, n) grows by the sum, over the chunk's 512 hidden units,
    of the hidden activation times the third weight block's entry. -/
theorem step_apply (hid : FVec Ideal S512x512 .bf16) (w : FVec Ideal S512x1024 .bf16) (acc : Vec Ideal S512x1024 .f32)
    (p : Fin 512) (n : Fin 1024) :
    k0_pay1 (F := Ideal) hid w acc (constant (F := Ideal) S512x1024 .f32 0x00000000#32) (ix2 p n)
      = acc (ix2 p n) + ∑ f : Fin 512, hid (ix2 p f) * w (ix2 f n) := by
  unfold k0_pay1
  rw [shapeCast_self, addf_apply, down_apply]

/-- The accumulator's reset value is zero everywhere. -/
theorem reset_apply (j : S512x1024.Idx) : k0_pay3 (F := Ideal) j = 0 := by
  unfold k0_pay3
  rw [shapeCast_self, broadcast_apply]
  exact Ideal.ofBits_zero_f32

/-- The block written back: its (0, p, n) is the accumulator's entry (p, n). -/
theorem store_apply {F : FTy → Type} [FloatOps F] (v : Vec F S512x1024 .f32) (z : Fin 1) (p : Fin 512) (n : Fin 1024) :
    k0_pay2 (F := F) v (ix3 z p n) = v (ix2 p n) := by
  unfold k0_pay2
  exact add_apply v z p n

end Cert.KernelIdeal.Payload

end
-- ==== Proof.Accum.lean ====
/-
  The accumulator over a run of eight grid points, and the block the last of them writes back.

  Within a run (one expert, one block of 512 token rows, the eight chunks of hidden units in order) the accumulator
  starts at zero and each point adds its chunk's partial sum; so after the point of chunk k it holds the sum of the
  partial sums of chunks 0 … k, and after the last point the whole sum over the 4096 hidden units: the specification's
  value at the block's rows. Only associativity and commutativity of addition are used.
-/
import proofs.«143863_j46815143526760_1_alg».proof.Proof.Gen.KernelIdeal.Value
import proofs.«143863_j46815143526760_1_alg».proof.Proof.Blocks
import proofs.«143863_j46815143526760_1_alg».proof.Proof.Pieces
import proofs.«143863_j46815143526760_1_alg».proof.Proof.Payload

noncomputable section

namespace Cert.KernelIdeal.Accum

open Cert.KernelIdeal Cert.KernelIdeal.Gen Idealize.ShloMosaic Idealize.ShloMosaic.TcCoe Idealize.ShloMosaic.ValueIdx Idealize.SL.Sem
open Cert.GluSpec Cert.KernelIdeal.Blocks Cert.KernelIdeal.Pieces Cert.KernelIdeal.Payload

variable (m : (ℓ : Loc nD τ sig) → Buf (Elt Ideal) ℓ)

/-- What grid point n adds to the accumulator's entry (p, q): its chunk's partial sum for token row p of its row block. -/
def addend (c : Dev nD) (n : Nat) (i : S512x1024.Idx) : EReal :=
  chunk (tokens m c) (upW m c) (gateW m c) (downW m c) (expertOf n) (rowOf n (i 0)) (i 1) n

/-- One grid point's step, entry by entry: the accumulator grows by the point's addend. -/
theorem step_point (c : Dev nD) (t : Fin cfg0.N) (acc : Vec Ideal S512x1024 .f32) (i : S512x1024.Idx) :
    step (iblk m c 0 t) (iblk m c 1 t) (iblk m c 2 t) (iblk m c 3 t) acc i = acc i + addend m c t.val i := by
  obtain ⟨p, n, rfl⟩ : ∃ (p : Fin 512) (n : Fin 1024), i = ix2 p n := ⟨i 0, i 1, eq_ix2 i⟩
  unfold step
  rw [step_apply]
  congr 1
  unfold addend chunk
  refine Finset.sum_congr rfl fun f _ => ?_
  rw [act_apply, weight_apply]
  unfold term proj
  simp only [tokens_blk, up_blk, gate_blk, down_blk]

/-- What point n leaves in the accumulator over what the point before left: zero at the first point of a run, else
    what it found, plus the point's addend. -/
theorem left_at (c : Dev nD) (n : ℕ) (h : n < cfg0.N) (acc : Vec Ideal S512x1024 .f32) (i : S512x1024.Idx) :
    Value.scAt0_0 m c n h acc i = (if n % 8 = 0 then 0 else acc i) + addend m c n i := by
  have hN : n < 512 := lt_of_lt_of_eq h (show cfg0.N = 512 from N_0)
  unfold Value.scAt0_0
  by_cases h0 : n % 8 = 0
  · have h1 : ¬ n % 8 = 7 := by omega
    rw [dif_pos h0, dif_neg h1, if_pos h0]
    refine (congrFun (scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) i).trans ?_
    refine (step_point m c (⟨n, h⟩ : Fin cfg0.N) _ i).trans ?_
    rw [reset_apply]
  · by_cases h1 : n % 8 = 7
    · rw [dif_neg h0, dif_pos h1, if_neg h0]
      refine (congrFun (scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) i).trans ?_
      exact step_point m c (⟨n, h⟩ : Fin cfg0.N) acc i
    · rw [dif_neg h0, dif_neg h1, if_neg h0]
      refine (congrFun (scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) i).trans ?_
      exact step_point m c (⟨n, h⟩ : Fin cfg0.N) acc i

/-- THE ACCUMULATOR AFTER POINT t: the addends of the run's points up to t, added up from zero. -/
theorem scratch_at (c : Dev nD) (t : Fin cfg0.N) (i : S512x1024.Idx) :
    (outsAt0 m c t.val t.isLt).2 i = 0 + ∑ s ∈ Finset.range (t.val % 8 + 1), addend m c (8 * (t.val / 8) + s) i := by
  have hN : t.val < 512 := lt_of_lt_of_eq t.isLt (show cfg0.N = 512 from N_0)
  rw [Value.soutsAt0_0_eq m c t]
  refine Pipeline.accAt_add_apply (fun n h => Value.scAt0_0 m c n h (VS0_0.read (Elt Ideal) VS0_0.junk)) (Value.scAt0_0 m c)
    (fun _ => (0 : EReal)) (addend m c) (8 * (t.val / 8)) 7 ?_ ?_ (t.val % 8) (by omega) _ i
  · intro h j
    rw [left_at, if_pos (by omega)]
  · intro n h acc j hlo hhi
    rw [left_at, if_neg (by omega)]

end Cert.KernelIdeal.Accum

end
-- ==== Proof.Final.lean ====
/-
  From the blocks written back to the whole result array, and the kernel's run read as the specification.

  Only the last point of each run of eight writes its output block back, and there the accumulator holds the
  specification's value at the block's rows; the 64 blocks written back tile the result array.
-/
import proofs.«143863_j46815143526760_1_alg».proof.Proof.Accum

noncomputable section

namespace Cert.KernelIdeal.Final

open Cert.KernelIdeal Cert.KernelIdeal.Gen Idealize.ShloMosaic Idealize.ShloMosaic.TcCoe Idealize.ShloMosaic.ValueIdx Idealize.SL.Sem
open Cert.GluSpec Cert.KernelIdeal.Blocks Cert.KernelIdeal.Pieces Cert.KernelIdeal.Payload Cert.KernelIdeal.Accum

variable (m : (ℓ : Loc nD τ sig) → Buf (Elt Ideal) ℓ) (ρ : Dev nD → PrngReg)

/-- The specification's result, of the argument arrays as the kernel finds them. -/
abbrev result (c : Dev nD) : Vec Ideal S16x2048x1024 .f32 := G (tokens m c) (upW m c) (gateW m c) (downW m c)

/-- The output block is written back exactly at the last point of each run of eight (decided over the grid). -/
theorem flush_iff : ∀ t : Fin cfg0.N, (cfg0.win 4).flush t = true ↔ t.val % 8 = 7 :=
  (by decide +kernel : ∀ t : Fin grid0.N, _)

/-- Which chunk a point names depends only on the point modulo 8. -/
theorem chunk_mod (X : SX.Idx → EReal) (W1 V1 W2 : SW.Idx → EReal) (e : Fin 16) (r : Fin 2048) (n : Fin 1024) (s s' : Nat)
    (h : s % 8 = s' % 8) : chunk X W1 V1 W2 e r n s = chunk X W1 V1 W2 e r n s' := by
  unfold chunk
  refine Finset.sum_congr rfl fun f _ => ?_
  congr 1
  apply Fin.ext
  show (s % 8) * 512 + f.val = (s' % 8) * 512 + f.val
  rw [h]

/-- AFTER THE LAST POINT OF A RUN the accumulator holds the specification's value at the run's rows. -/
theorem run_total (c : Dev nD) (t : Fin cfg0.N) (h7 : t.val % 8 = 7) (p : Fin 512) (n : Fin 1024) :
    (outsAt0 m c t.val t.isLt).2 (ix2 p n) = result m c (ix3 (expertOf t.val) (rowOf t.val p) n) := by
  have hN : t.val < 512 := lt_of_lt_of_eq t.isLt (show cfg0.N = 512 from N_0)
  rw [scratch_at, zero_add, h7]
  show _ = G (tokens m c) (upW m c) (gateW m c) (downW m c) (ix3 (expertOf t.val) (rowOf t.val p) n)
  rw [G_eq_chunks]
  refine Finset.sum_congr rfl fun s hs => ?_
  have hs8 : s < 8 := Finset.mem_range.mp hs
  unfold addend
  have he : expertOf (8 * (t.val / 8) + s) = expertOf t.val := Fin.ext (by show (8 * (t.val / 8) + s) / 32 % 16 = t.val / 32 % 16; omega)
  have hr : rowOf (8 * (t.val / 8) + s) p = rowOf t.val p := Fin.ext (by show ((8 * (t.val / 8) + s) / 8 % 4) * 512 + p.val = (t.val / 8 % 4) * 512 + p.val; omega)
  show chunk _ _ _ _ (expertOf (8 * (t.val / 8) + s)) (rowOf (8 * (t.val / 8) + s) p) n (8 * (t.val / 8) + s) = chunk _ _ _ _ (expertOf t.val) (rowOf t.val p) n s
  rw [he, hr]
  exact chunk_mod _ _ _ _ _ _ _ _ _ (by omega)

/-- At the last point of a run the output block is the new accumulator under a leading unit axis. -/
theorem out_at (c : Dev nD) (t : Fin cfg0.N) (h7 : t.val % 8 = 7) :
    (outsAt0 m c t.val t.isLt).1 = k0_pay2 (outsAt0 m c t.val t.isLt).2 := by
  have h0 : ¬ t.val % 8 = 0 := by omega
  rw [outsAt0_C m c t h0 h7]
  dsimp only
  exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h7) (iblk m c 0 t) (iblk m c 1 t) (iblk m c 2 t) (iblk m c 3 t) _).trans
    (congrArg k0_pay2 (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h7) (iblk m c 0 t) (iblk m c 1 t) (iblk m c 2 t) (iblk m c 3 t) _).symm)

/-- WHAT A WRITING POINT WRITES BACK is its block of the specification's result. -/
theorem flushed_eq (c : Dev nD) (t : Fin cfg0.N) (hf : (cfg0.win 4).flush t = true) :
    (dats m 0 c).flushed 4 t = ((cfg0.win 4).blk t).view.read (Elt Ideal) (result m c) := by
  have h7 := (flush_iff t).mp hf
  have hN : t.val < 512 := lt_of_lt_of_eq t.isLt (show cfg0.N = 512 from N_0)
  obtain ⟨e0, e1, e2⟩ := idx_out t
  rw [Value.flushed4, out_at m c t h7]
  funext y
  have hy0 : (y 0).val < 1 := (y 0).isLt
  have hy1 : (y 1).val < 512 := (y 1).isLt
  have hy2 : (y 2).val < 1024 := (y 2).isLt
  rw [View.read_apply]
  show k0_pay2 (outsAt0 m c t.val t.isLt).2 ((cfg0.win 4).xinj (grid0.coords t) y) = result m c (((cfg0.win 4).blk t).view.emb y)
  have hx : (cfg0.win 4).xinj (grid0.coords t) y = ix3 (⟨(y 0).val, hy0⟩ : Fin 1) (⟨(y 1).val, hy1⟩ : Fin 512) (⟨(y 2).val, hy2⟩ : Fin 1024) := by
    funext a; match a with | ⟨0, _⟩ => rfl | ⟨1, _⟩ => rfl | ⟨2, _⟩ => rfl
  rw [hx, store_apply, run_total m c t h7]
  congr 1
  funext a; apply Fin.ext
  match a with
  | ⟨0, _⟩ => show t.val / 32 % 16 = win0_4.index t (0 : Fin 3) * 1 + 1 * (y 0).val; omega
  | ⟨1, _⟩ => show (t.val / 8 % 4) * 512 + (y 1).val = win0_4.index t (1 : Fin 3) * 512 + 1 * (y 1).val; omega
  | ⟨2, _⟩ => show (y 2).val = win0_4.index t (2 : Fin 3) * 1024 + 1 * (y 2).val; omega

/-- An index of the result array lies in point t's output block iff each coordinate lies in the block's range. -/
theorem mem_blk (t : Fin cfg0.N) (i : S16x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v0).slice (win0_4.rect t)).set ↔ _
  rw [View.set_slice_whole, Rect.mem_set_unit]
  exact Iff.rfl

/-- THE BLOCKS WRITTEN BACK TILE THE RESULT: entry (e, r, n) lies in the block of the last point of the run of expert e
    and row block r / 512. -/
theorem cover (i : S16x2048x1024.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 1024 := (i 2).isLt
  have hlt : ((i 0).val * 4 + (i 1).val / 512) * 8 + 7 < cfg0.N := by rw [show cfg0.N = 512 from N_0]; omega
  obtain ⟨e0, e1, e2⟩ := idx_out ⟨((i 0).val * 4 + (i 1).val / 512) * 8 + 7, hlt⟩
  have e0' : win0_4.index ⟨((i 0).val * 4 + (i 1).val / 512) * 8 + 7, hlt⟩ (0 : Fin 3) = (((i 0).val * 4 + (i 1).val / 512) * 8 + 7) / 32 := e0
  have e1' : win0_4.index ⟨((i 0).val * 4 + (i 1).val / 512) * 8 + 7, hlt⟩ (1 : Fin 3) = (((i 0).val * 4 + (i 1).val / 512) * 8 + 7) / 8 % 4 := e1
  refine ⟨⟨((i 0).val * 4 + (i 1).val / 512) * 8 + 7, hlt⟩, (flush_iff _).mpr (by show (((i 0).val * 4 + (i 1).val / 512) * 8 + 7) % 8 = 7; omega), ?_⟩
  rw [mem_blk]
  intro a
  match a with
  | ⟨0, _⟩ => show win0_4.index ⟨((i 0).val * 4 + (i 1).val / 512) * 8 + 7, hlt⟩ (0 : Fin 3) * 1 ≤ (i 0).val ∧ (i 0).val < win0_4.index ⟨((i 0).val * 4 + (i 1).val / 512) * 8 + 7, hlt⟩ (0 : Fin 3) * 1 + 1; omega
  | ⟨1, _⟩ => show win0_4.index ⟨((i 0).val * 4 + (i 1).val / 512) * 8 + 7, hlt⟩ (1 : Fin 3) * 512 ≤ (i 1).val ∧ (i 1).val < win0_4.index ⟨((i 0).val * 4 + (i 1).val / 512) * 8 + 7, hlt⟩ (1 : Fin 3) * 512 + 512; omega
  | ⟨2, _⟩ => show win0_4.index ⟨((i 0).val * 4 + (i 1).val / 512) * 8 + 7, hlt⟩ (2 : Fin 3) * 1024 ≤ (i 2).val ∧ (i 2).val < win0_4.index ⟨((i 0).val * 4 + (i 1).val / 512) * 8 + 7, hlt⟩ (2 : Fin 3) * 1024 + 1024; omega

/-- THE RESULT ARRAY after the run is the specification's result. -/
theorem final_out (c : Dev nD) : (dats m 0 c).arrAt 4 cfg0.N = result m c :=
  (dats m 0 c).arrAt_eq_of_cover 4 (result m c) (fun t hf => flushed_eq m c t hf) cover

/-- The kernel's run: it ends with the result array at the specification's result and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out m c), (h c).2⟩) (Value.run_blocks m ρ)

end Cert.KernelIdeal.Final

end
-- ==== Proof.lean ====
/-
  The gated feed-forward block of a mixture of experts, one expert at a time: out = (gelu_tanh (x·W1ᵀ) ⊙ (x·V1ᵀ))·W2.

  The kernel walks a grid of 16 experts × 4 blocks of 512 token rows × 8 chunks of 512 hidden units. At each point it
  forms the chunk's 512 × 512 hidden activations from the token block and the chunk's rows of W1 and V1, multiplies
  them into the chunk's rows of W2, and adds the product to an accumulator that is zeroed at a run's first chunk and
  copied to the output block at its last. The reference computes the three einsums over whole arrays. On the extended
  reals both are, at (e, t, n), the sum over all 4096 hidden units f of
      act (Σ_h x[e,t,h]·W1[e,f,h]) (Σ_h x[e,t,h]·V1[e,f,h]) · W2[e,f,n]
  (`Cert.GluSpec.G`): the kernel reaches it chunk by chunk, which is the same sum because addition is associative and
  commutative, and rounding to bf16 is the identity there; the reference brackets the cube the other way, which is the
  same product because multiplication is commutative. No law that needs finiteness is used, so the precondition is
  never opened.

  The modules: GluSpec (the specification and the split of the sum into chunks), RefSpec (the reference is the
  specification), Payload (the body's arithmetic at an index), Pieces (what one grid point leaves, at any float
  instance), Blocks (where a point's blocks sit in the arrays), Accum (the accumulator over a run), Final (the blocks
  written back tile the result; the kernel's run).
-/
import proofs.«143863_j46815143526760_1_alg».proof.Defs
import proofs.«143863_j46815143526760_1_alg».proof.Proof.Gen.Kernel
import proofs.«143863_j46815143526760_1_alg».proof.Proof.Gen.Kernel.Skeleton
import proofs.«143863_j46815143526760_1_alg».proof.Proof.Gen.Kernel.Launch
import proofs.«143863_j46815143526760_1_alg».proof.Proof.Gen.Kernel.Points
import proofs.«143863_j46815143526760_1_alg».proof.Proof.Gen.Kernel.Frame
import proofs.«143863_j46815143526760_1_alg».proof.Proof.Gen.KernelIdeal
import proofs.«143863_j46815143526760_1_alg».proof.Proof.Gen.KernelIdeal.Skeleton
import proofs.«143863_j46815143526760_1_alg».proof.Proof.Gen.KernelIdeal.Launch
import proofs.«143863_j46815143526760_1_alg».proof.Proof.Gen.KernelIdeal.Points
import proofs.«143863_j46815143526760_1_alg».proof.Proof.Gen.KernelIdeal.Frame
import proofs.«143863_j46815143526760_1_alg».proof.Proof.Gen.KernelIdeal.Value
import proofs.«143863_j46815143526760_1_alg».proof.Proof.Gen.ReferenceIdeal
import proofs.«143863_j46815143526760_1_alg».proof.Proof.Gen.ReferenceIdeal.Run
import proofs.«143863_j46815143526760_1_alg».proof.Proof.Gen.ReferenceIdeal.Read
import proofs.«143863_j46815143526760_1_alg».proof.Proof.Gen.Pre_finite_inputs
import proofs.«143863_j46815143526760_1_alg».proof.Proof.RefSpec
import proofs.«143863_j46815143526760_1_alg».proof.Proof.Final
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From arguments that agree, the kernel ends at the specification's result of its arguments and the reference at
    the specification's result of its own: one function of equal arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefSpec.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
